-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11272192 : Shape := ⟨1, ![11272192]⟩
abbrev S11008x1 : Shape := ⟨2, ![11008, 1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x1 : S_.BroadcastsInDim S11008x1 (![] : Fin 0 → Fin S11008x1.rank)
  reducesTo_S11008x1_S_d0_1 : S11008x1.ReducesTo [0, 1] S_

variable [Facts]

def fn {F : FTy → Type} [FloatOps F] (main_arg0 : FVec F S4x2048x4096 .f32) (main_arg1 : IVec S11272192 32) (main_arg2 : FVec F S11008x1 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x1 .f32 := Host.absf main_arg2
  let main_cst_0 : FVec F S_ .f32 := constant S_ .f32 0x7F800000#32
  let main_v5 : FVec F S11008x1 .f32 := broadcastInDim S11008x1 ![] bcast_S_S11008x1 main_cst_0
  let main_v6 : IVec S11008x1 1 := cmpf .olt main_v4 main_v5
  let main_c_1 : IVec S_ 1 := constantI S_ 1 1#1
  let main_v7 : IVec S_ 1 := (fun x v => Host.reduce IntOp.andi x v reducesTo_S11008x1_S_d0_1 h_S_) main_v6 main_c_1
  let main_v8 : IVec S_ 1 := andi main_v3 main_v7
  main_v8
-- ==== Kernel.lean ====
abbrev S4x2048x4096 : Shape := ⟨3, ![4, 2048, 4096]⟩
abbrev S11272192 : Shape := ⟨1, ![11272192]⟩
abbrev S11008x1 : Shape := ⟨2, ![11008, 1]⟩
abbrev S8192x4096 : Shape := ⟨2, ![8192, 4096]⟩
abbrev S4 : Shape := ⟨1, ![4]⟩
abbrev S_ : Shape := ⟨0, ![]⟩
abbrev S11272192x1 : Shape := ⟨2, ![11272192, 1]⟩
abbrev S1x4 : Shape := ⟨2, ![1, 4]⟩
abbrev S11272192x4 : Shape := ⟨2, ![11272192, 4]⟩
abbrev S45088768 : Shape := ⟨1, ![45088768]⟩
abbrev S11008x4096 : Shape := ⟨2, ![11008, 4096]⟩
abbrev S1x11008 : Shape := ⟨2, ![1, 11008]⟩
abbrev S8192x11008 : Shape := ⟨2, ![8192, 11008]⟩
abbrev S2048x4096 : Shape := ⟨2, ![2048, 4096]⟩
abbrev S256x4096 : Shape := ⟨2, ![256, 4096]⟩
abbrev S1x256 : Shape := ⟨2, ![1, 256]⟩
abbrev S2048x256 : Shape := ⟨2, ![2048, 256]⟩
abbrev S4x2048x11008 : Shape := ⟨3, ![4, 2048, 11008]⟩

abbrev nBuf : Space → Nat
  | .hbm => 27
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S11272192, .i32⟩
  | .hbm, ⟨2, _⟩ => ⟨S11008x1, .f32⟩
  | .hbm, ⟨3, _⟩ => ⟨S8192x4096, .f32⟩
  | .hbm, ⟨4, _⟩ => ⟨S8192x4096, .bf16⟩
  | .hbm, ⟨5, _⟩ => ⟨S4, .i32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S11272192x1, .i32⟩
  | .hbm, ⟨10, _⟩ => ⟨S1x4, .i32⟩
  | .hbm, ⟨11, _⟩ => ⟨S11272192x4, .i32⟩
  | .hbm, ⟨12, _⟩ => ⟨S11272192x4, .i32⟩
  | .hbm, ⟨13, _⟩ => ⟨S11272192x4, .i32⟩
  | .hbm, ⟨14, _⟩ => ⟨S_, .i32⟩
  | .hbm, ⟨15, _⟩ => ⟨S11272192x4, .i32⟩
  | .hbm, ⟨16, _⟩ => ⟨S11272192x4, .i32⟩
  | .hbm, ⟨17, _⟩ => ⟨S45088768, .i32⟩
  | .hbm, ⟨18, _⟩ => ⟨S45088768, .f32⟩
  | .hbm, ⟨19, _⟩ => ⟨S_, .f32⟩
  | .hbm, ⟨20, _⟩ => ⟨S45088768, .f32⟩
  | .hbm, ⟨21, _⟩ => ⟨S45088768, .f32⟩
  | .hbm, ⟨22, _⟩ => ⟨S11008x4096, .f32⟩
  | .hbm, ⟨23, _⟩ => ⟨S11008x4096, .bf16⟩
  | .hbm, ⟨24, _⟩ => ⟨S1x11008, .f32⟩
  | .hbm, ⟨25, _⟩ => ⟨S8192x11008, .f32⟩
  | .hbm, ⟨26, _⟩ => ⟨S4x2048x11008, .f32⟩
  | .local _ .vmem, ⟨0, _⟩ => ⟨S2048x4096, .bf16⟩
  | .local _ .vmem, ⟨1, _⟩ => ⟨S2048x4096, .bf16⟩
  | .local _ .vmem, ⟨2, _⟩ => ⟨S256x4096, .bf16⟩
  | .local _ .vmem, ⟨3, _⟩ => ⟨S256x4096, .bf16⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  bitsLt_bf16_f32 : FTy.bits .bf16 < FTy.bits .f32
  bcast_S_S4 : S_.BroadcastsInDim S4 (![] : Fin 0 → Fin S4.rank)
  bcast_S11272192_S11272192x1_0 : S11272192.BroadcastsInDim S11272192x1 (![0] : Fin 1 → Fin S11272192x1.rank)
  bcast_S4_S1x4_1 : S4.BroadcastsInDim S1x4 (![1] : Fin 1 → Fin S1x4.rank)
  bcast_S11272192x1_S11272192x4_0_1 : S11272192x1.BroadcastsInDim S11272192x4 (![0, 1] : Fin 2 → Fin S11272192x4.rank)
  bcast_S1x4_S11272192x4_0_1 : S1x4.BroadcastsInDim S11272192x4 (![0, 1] : Fin 2 → Fin S11272192x4.rank)
  bcast_S_S11272192x4 : S_.BroadcastsInDim S11272192x4 (![] : Fin 0 → Fin S11272192x4.rank)
  shapeCasts_S11272192x4_S45088768 : S11272192x4.ShapeCasts S45088768
  bcast_S_S45088768 : S_.BroadcastsInDim S45088768 (![] : Fin 0 → Fin S45088768.rank)
  shapeCasts_S45088768_S11008x4096 : S45088768.ShapeCasts S11008x4096
  shapeCasts_S11008x1_S1x11008 : S11008x1.ShapeCasts S1x11008
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S8192x11008_S4x2048x11008 : S8192x11008.ShapeCasts S4x2048x11008
  dot_S2048x4096_S256x4096_S2048x256_1_1_0_0_n_n_wf : DotDims.WF S2048x4096 S256x4096 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S8192x4096.size a
  hwx0_0 : ∀ i : grid0.Coords, EltTy.bits .bf16 = 32 ∨ (Rect.block (s := S8192x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x11008.size a
  hwx0_3 : ∀ i : grid0.Coords, EltTy.bits .f32 = 32 ∨ (Rect.block (s := S8192x11008) S2048x256.size (cc0_transform_3 i) (hinb0_3 i)).WholeWords (EltTy.packing .f32)

variable [Facts₀]

def dot_S2048x4096_S256x4096_S2048x256_1_1_0_0_n_n : DotDims S2048x4096 S256x4096 S2048x256 where
  lhsContracting := [1]
  rhsContracting := [1]
  lhsNonContracting := [0]
  rhsNonContracting := [0]
  lhsBatch := []
  rhsBatch := []
  wf := dot_S2048x4096_S256x4096_S2048x256_1_1_0_0_n_n_wf

abbrev win0_0 : Pipeline.Window sig grid0 :=
  Pipeline.Window.ofSpec (Memref.whole main_v1) S2048x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11272192 : Shape := ⟨1, ![11272192]⟩
abbrev S11008x1 : Shape := ⟨2, ![11008, 1]⟩
abbrev S4 : Shape := ⟨1, ![4]⟩
abbrev S_ : Shape := ⟨0, ![]⟩
abbrev S11272192x1 : Shape := ⟨2, ![11272192, 1]⟩
abbrev S1x4 : Shape := ⟨2, ![1, 4]⟩
abbrev S11272192x4 : Shape := ⟨2, ![11272192, 4]⟩
abbrev S45088768 : Shape := ⟨1, ![45088768]⟩
abbrev S11008x4096 : Shape := ⟨2, ![11008, 4096]⟩
abbrev S4x2048x11008 : Shape := ⟨3, ![4, 2048, 11008]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11272192, .i32⟩
  | .hbm, ⟨2, _⟩ => ⟨S11008x1, .f32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S11272192x1, .i32⟩
  | .hbm, ⟨8, _⟩ => ⟨S1x4, .i32⟩
  | .hbm, ⟨9, _⟩ => ⟨S11272192x4, .i32⟩
  | .hbm, ⟨10, _⟩ => ⟨S11272192x4, .i32⟩
  | .hbm, ⟨11, _⟩ => ⟨S11272192x4, .i32⟩
  | .hbm, ⟨12, _⟩ => ⟨S_, .i32⟩
  | .hbm, ⟨13, _⟩ => ⟨S11272192x4, .i32⟩
  | .hbm, ⟨14, _⟩ => ⟨S11272192x4, .i32⟩
  | .hbm, ⟨15, _⟩ => ⟨S45088768, .i32⟩
  | .hbm, ⟨16, _⟩ => ⟨S45088768, .f32⟩
  | .hbm, ⟨17, _⟩ => ⟨S_, .f32⟩
  | .hbm, ⟨18, _⟩ => ⟨S45088768, .f32⟩
  | .hbm, ⟨19, _⟩ => ⟨S45088768, .f32⟩
  | .hbm, ⟨20, _⟩ => ⟨S11008x4096, .f32⟩
  | .hbm, ⟨21, _⟩ => ⟨S11008x4096, .f32⟩
  | .hbm, ⟨22, _⟩ => ⟨S11008x4096, .f32⟩
  | .hbm, ⟨23, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S11272192_S11272192x1_0 : S11272192.BroadcastsInDim S11272192x1 (![0] : Fin 1 → Fin S11272192x1.rank)
  bcast_S4_S1x4_1 : S4.BroadcastsInDim S1x4 (![1] : Fin 1 → Fin S1x4.rank)
  bcast_S11272192x1_S11272192x4_0_1 : S11272192x1.BroadcastsInDim S11272192x4 (![0, 1] : Fin 2 → Fin S11272192x4.rank)
  bcast_S1x4_S11272192x4_0_1 : S1x4.BroadcastsInDim S11272192x4 (![0, 1] : Fin 2 → Fin S11272192x4.rank)
  bcast_S_S11272192x4 : S_.BroadcastsInDim S11272192x4 (![] : Fin 0 → Fin S11272192x4.rank)
  shapeCasts_S11272192x4_S45088768 : S11272192x4.ShapeCasts S45088768
  bcast_S_S45088768 : S_.BroadcastsInDim S45088768 (![] : Fin 0 → Fin S45088768.rank)
  shapeCasts_S45088768_S11008x4096 : S45088768.ShapeCasts S11008x4096
  bcast_S11008x1_S11008x4096_0_1 : S11008x1.BroadcastsInDim S11008x4096 (![0, 1] : Fin 2 → Fin S11008x4096.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.LibFinite.lean ====
/-
  Real-valuedness calculus at the exact-arithmetic instance.

  An array of extended reals is *real-valued* when no element is an infinity; it is *positive* /
  *non-negative* when moreover every element is a positive / non-negative real. This module shows
  that the host program's operations keep arrays inside these classes: sums, differences and products
  of reals are real, a quotient by a positive real is real, an exponential is positive, a square root
  of a non-negative real is non-negative, a real power of a positive base is positive, a maximum of
  reals is real, and every re-indexing operation (broadcast, reshape, slice, concatenate, gather)
  only moves elements around. A finite sum of reals is real, which covers the additive reduction,
  the additive scatter and the matrix product.
-/
import Idealize.ShloMosaic.Lib.IdealHost
import Mathlib.Data.EReal.Basic
import Mathlib.Data.EReal.Operations
import Mathlib.Data.EReal.Inv
import Mathlib.Analysis.SpecialFunctions.Pow.Real
import Mathlib.Analysis.SpecialFunctions.Exp
import Mathlib.Analysis.SpecialFunctions.Sqrt
import Mathlib.Algebra.BigOperators.Group.Finset.Basic

namespace Cert.LibFinite

open Idealize.ShloMosaic
open scoped BigOperators

/-! ## The three classes -/

/-- Every element is a real number. -/
def AllReal {s : Shape} (v : FVec Ideal s .f32) : Prop := ∀ i, ∃ r : ℝ, v i = (r : EReal)
/-- Every element is a positive real number. -/
def AllPos {s : Shape} (v : FVec Ideal s .f32) : Prop := ∀ i, ∃ r : ℝ, 0 < r ∧ v i = (r : EReal)
/-- Every element is a non-negative real number. -/
def AllNonneg {s : Shape} (v : FVec Ideal s .f32) : Prop := ∀ i, ∃ r : ℝ, 0 ≤ r ∧ v i = (r : EReal)

theorem AllPos.allReal {s : Shape} {v : FVec Ideal s .f32} (h : AllPos v) : AllReal v :=
  fun i => let ⟨r, _, e⟩ := h i; ⟨r, e⟩
theorem AllPos.allNonneg {s : Shape} {v : FVec Ideal s .f32} (h : AllPos v) : AllNonneg v :=
  fun i => let ⟨r, hr, e⟩ := h i; ⟨r, hr.le, e⟩
theorem AllNonneg.allReal {s : Shape} {v : FVec Ideal s .f32} (h : AllNonneg v) : AllReal v :=
  fun i => let ⟨r, _, e⟩ := h i; ⟨r, e⟩

/-- A real-valued array is the coercion of an array of reals. -/
theorem AllReal.exists_eq_coe {s : Shape} {v : FVec Ideal s .f32} (h : AllReal v) :
    ∃ r : s.Idx → ℝ, v = fun i => (r i : EReal) := by
  choose r hr using h
  exact ⟨r, funext hr⟩

theorem allReal_coe {s : Shape} (r : s.Idx → ℝ) : AllReal (s := s) (fun i => (r i : EReal)) := fun i => ⟨r i, rfl⟩

/-- A class depends on the array only through its elements. -/
theorem AllReal.of_forall_mem {s t : Shape} {v : FVec Ideal s .f32} {w : FVec Ideal t .f32} (h : AllReal v)
    (hw : ∀ j, ∃ i, w j = v i) : AllReal w := fun j => by
  obtain ⟨i, e⟩ := hw j; rw [e]; exact h i
theorem AllPos.of_forall_mem {s t : Shape} {v : FVec Ideal s .f32} {w : FVec Ideal t .f32} (h : AllPos v)
    (hw : ∀ j, ∃ i, w j = v i) : AllPos w := fun j => by
  obtain ⟨i, e⟩ := hw j; rw [e]; exact h i
theorem AllNonneg.of_forall_mem {s t : Shape} {v : FVec Ideal s .f32} {w : FVec Ideal t .f32} (h : AllNonneg v)
    (hw : ∀ j, ∃ i, w j = v i) : AllNonneg w := fun j => by
  obtain ⟨i, e⟩ := hw j; rw [e]; exact h i

/-! ## Elementwise arithmetic -/

section Pointwise
variable {s : Shape}

theorem allReal_addf {a b : FVec Ideal s .f32} (ha : AllReal a) (hb : AllReal b) :
    AllReal (Idealize.ShloMosaic.addf a b) := fun i => by
  obtain ⟨x, hx⟩ := ha i; obtain ⟨y, hy⟩ := hb i
  exact ⟨x + y, by show a i + b i = _; rw [hx, hy, EReal.coe_add]⟩

theorem allNonneg_addf {a b : FVec Ideal s .f32} (ha : AllNonneg a) (hb : AllNonneg b) :
    AllNonneg (Idealize.ShloMosaic.addf a b) := fun i => by
  obtain ⟨x, hx0, hx⟩ := ha i; obtain ⟨y, hy0, hy⟩ := hb i
  exact ⟨x + y, add_nonneg hx0 hy0, by show a i + b i = _; rw [hx, hy, EReal.coe_add]⟩

theorem allPos_addf_nonneg_pos {a b : FVec Ideal s .f32} (ha : AllNonneg a) (hb : AllPos b) :
    AllPos (Idealize.ShloMosaic.addf a b) := fun i => by
  obtain ⟨x, hx0, hx⟩ := ha i; obtain ⟨y, hy0, hy⟩ := hb i
  exact ⟨x + y, add_pos_of_nonneg_of_pos hx0 hy0, by show a i + b i = _; rw [hx, hy, EReal.coe_add]⟩

theorem allPos_addf_pos_nonneg {a b : FVec Ideal s .f32} (ha : AllPos a) (hb : AllNonneg b) :
    AllPos (Idealize.ShloMosaic.addf a b) := fun i => by
  obtain ⟨x, hx0, hx⟩ := ha i; obtain ⟨y, hy0, hy⟩ := hb i
  exact ⟨x + y, add_pos_of_pos_of_nonneg hx0 hy0, by show a i + b i = _; rw [hx, hy, EReal.coe_add]⟩

theorem allPos_addf {a b : FVec Ideal s .f32} (ha : AllPos a) (hb : AllPos b) :
    AllPos (Idealize.ShloMosaic.addf a b) := allPos_addf_pos_nonneg ha hb.allNonneg

theorem allReal_subf {a b : FVec Ideal s .f32} (ha : AllReal a) (hb : AllReal b) :
    AllReal (Idealize.ShloMosaic.subf a b) := fun i => by
  obtain ⟨x, hx⟩ := ha i; obtain ⟨y, hy⟩ := hb i
  exact ⟨x - y, by show a i - b i = _; rw [hx, hy, EReal.coe_sub]⟩

theorem allReal_mulf {a b : FVec Ideal s .f32} (ha : AllReal a) (hb : AllReal b) :
    AllReal (Idealize.ShloMosaic.mulf a b) := fun i => by
  obtain ⟨x, hx⟩ := ha i; obtain ⟨y, hy⟩ := hb i
  exact ⟨x * y, by show a i * b i = _; rw [hx, hy, EReal.coe_mul]⟩

theorem allNonneg_mulf {a b : FVec Ideal s .f32} (ha : AllNonneg a) (hb : AllNonneg b) :
    AllNonneg (Idealize.ShloMosaic.mulf a b) := fun i => by
  obtain ⟨x, hx0, hx⟩ := ha i; obtain ⟨y, hy0, hy⟩ := hb i
  exact ⟨x * y, mul_nonneg hx0 hy0, by show a i * b i = _; rw [hx, hy, EReal.coe_mul]⟩

theorem allPos_mulf {a b : FVec Ideal s .f32} (ha : AllPos a) (hb : AllPos b) :
    AllPos (Idealize.ShloMosaic.mulf a b) := fun i => by
  obtain ⟨x, hx0, hx⟩ := ha i; obtain ⟨y, hy0, hy⟩ := hb i
  exact ⟨x * y, mul_pos hx0 hy0, by show a i * b i = _; rw [hx, hy, EReal.coe_mul]⟩

/-- A square of a real-valued array is non-negative. -/
theorem allNonneg_mulf_self {a : FVec Ideal s .f32} (ha : AllReal a) :
    AllNonneg (Idealize.ShloMosaic.mulf a a) := fun i => by
  obtain ⟨x, hx⟩ := ha i
  exact ⟨x * x, mul_self_nonneg x, by show a i * a i = _; rw [hx, EReal.coe_mul]⟩

theorem allReal_negf {a : FVec Ideal s .f32} (ha : AllReal a) : AllReal (Host.negf a) := fun i => by
  obtain ⟨x, hx⟩ := ha i
  exact ⟨-x, by show -(a i) = _; rw [hx, EReal.coe_neg]⟩

/-! ### Quotient by a positive divisor -/

theorem div_coe_pos (x : EReal) {y : ℝ} (hy : 0 < y) : Ideal.div x (y : EReal) = x * ((1 / y : ℝ) : EReal) :=
  Ideal.div_coe hy.ne' x

theorem allReal_divf {a b : FVec Ideal s .f32} (ha : AllReal a) (hb : AllPos b) : AllReal (Host.divf a b) := fun i => by
  obtain ⟨x, hx⟩ := ha i; obtain ⟨y, hy0, hy⟩ := hb i
  exact ⟨x * (1 / y), by show Ideal.div (a i) (b i) = _; rw [hx, hy, div_coe_pos _ hy0, EReal.coe_mul]⟩

theorem allNonneg_divf {a b : FVec Ideal s .f32} (ha : AllNonneg a) (hb : AllPos b) : AllNonneg (Host.divf a b) := fun i => by
  obtain ⟨x, hx0, hx⟩ := ha i; obtain ⟨y, hy0, hy⟩ := hb i
  exact ⟨x * (1 / y), mul_nonneg hx0 (one_div_pos.2 hy0).le,
    by show Ideal.div (a i) (b i) = _; rw [hx, hy, div_coe_pos _ hy0, EReal.coe_mul]⟩

theorem allPos_divf {a b : FVec Ideal s .f32} (ha : AllPos a) (hb : AllPos b) : AllPos (Host.divf a b) := fun i => by
  obtain ⟨x, hx0, hx⟩ := ha i; obtain ⟨y, hy0, hy⟩ := hb i
  exact ⟨x * (1 / y), mul_pos hx0 (one_div_pos.2 hy0),
    by show Ideal.div (a i) (b i) = _; rw [hx, hy, div_coe_pos _ hy0, EReal.coe_mul]⟩

/-! ### Exponential, square root, power -/

theorem allPos_exp {a : FVec Ideal s .f32} (ha : AllReal a) : AllPos (Host.exp a) := fun i => by
  obtain ⟨x, hx⟩ := ha i
  exact ⟨Real.exp x, Real.exp_pos x, by show Ideal.exp (a i) = _; rw [hx, Ideal.exp_coe]⟩

theorem sqrt_coe_nonneg {x : ℝ} (hx : 0 ≤ x) : Ideal.sqrt (x : EReal) = (Real.sqrt x : EReal) := by
  rw [Ideal.sqrt_coe, if_neg (not_lt.2 hx)]

theorem allNonneg_sqrt {a : FVec Ideal s .f32} (ha : AllNonneg a) : AllNonneg (Host.sqrt a) := fun i => by
  obtain ⟨x, hx0, hx⟩ := ha i
  exact ⟨Real.sqrt x, Real.sqrt_nonneg x, by show Ideal.sqrt (a i) = _; rw [hx, sqrt_coe_nonneg hx0]⟩

theorem allPos_sqrt {a : FVec Ideal s .f32} (ha : AllPos a) : AllPos (Host.sqrt a) := fun i => by
  obtain ⟨x, hx0, hx⟩ := ha i
  exact ⟨Real.sqrt x, Real.sqrt_pos.2 hx0, by show Ideal.sqrt (a i) = _; rw [hx, sqrt_coe_nonneg hx0.le]⟩

/-- A real power of a positive base is positive. -/
theorem allPos_powf {a b : FVec Ideal s .f32} (ha : AllPos a) (hb : AllReal b) : AllPos (Host.powf a b) := fun i => by
  obtain ⟨x, hx0, hx⟩ := ha i; obtain ⟨y, hy⟩ := hb i
  exact ⟨Real.rpow x y, Real.rpow_pos_of_pos hx0 y, by show Ideal.pow (a i) (b i) = _; rw [hx, hy, Ideal.pow_coe_coe]⟩

/-- A real power of a real base is real (the real power function is total). -/
theorem allReal_powf {a b : FVec Ideal s .f32} (ha : AllReal a) (hb : AllReal b) : AllReal (Host.powf a b) := fun i => by
  obtain ⟨x, hx⟩ := ha i; obtain ⟨y, hy⟩ := hb i
  exact ⟨Real.rpow x y, by show Ideal.pow (a i) (b i) = _; rw [hx, hy, Ideal.pow_coe_coe]⟩

theorem allNonneg_powf {a b : FVec Ideal s .f32} (ha : AllNonneg a) (hb : AllReal b) : AllNonneg (Host.powf a b) := fun i => by
  obtain ⟨x, hx0, hx⟩ := ha i; obtain ⟨y, hy⟩ := hb i
  exact ⟨Real.rpow x y, Real.rpow_nonneg hx0 y, by show Ideal.pow (a i) (b i) = _; rw [hx, hy, Ideal.pow_coe_coe]⟩

/-! ### Maximum -/

theorem coe_max_real (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

theorem allReal_maximumf {a b : FVec Ideal s .f32} (ha : AllReal a) (hb : AllReal b) :
    AllReal (Idealize.ShloMosaic.maximumf a b) := fun i => by
  obtain ⟨x, hx⟩ := ha i; obtain ⟨y, hy⟩ := hb i
  exact ⟨max x y, by show max (a i) (b i) = _; rw [hx, hy, coe_max_real]⟩

theorem allPos_maximumf_left {a b : FVec Ideal s .f32} (ha : AllPos a) (hb : AllReal b) :
    AllPos (Idealize.ShloMosaic.maximumf a b) := fun i => by
  obtain ⟨x, hx0, hx⟩ := ha i; obtain ⟨y, hy⟩ := hb i
  exact ⟨max x y, lt_max_of_lt_left hx0, by show max (a i) (b i) = _; rw [hx, hy, coe_max_real]⟩

theorem allPos_maximumf_right {a b : FVec Ideal s .f32} (ha : AllReal a) (hb : AllPos b) :
    AllPos (Idealize.ShloMosaic.maximumf a b) := fun i => by
  obtain ⟨x, hx⟩ := ha i; obtain ⟨y, hy0, hy⟩ := hb i
  exact ⟨max x y, lt_max_of_lt_right hy0, by show max (a i) (b i) = _; rw [hx, hy, coe_max_real]⟩

theorem allNonneg_maximumf_left {a b : FVec Ideal s .f32} (ha : AllNonneg a) (hb : AllReal b) :
    AllNonneg (Idealize.ShloMosaic.maximumf a b) := fun i => by
  obtain ⟨x, hx0, hx⟩ := ha i; obtain ⟨y, hy⟩ := hb i
  exact ⟨max x y, le_max_of_le_left hx0, by show max (a i) (b i) = _; rw [hx, hy, coe_max_real]⟩

/-- The rectifier: a maximum with a non-negative array (with zero) is non-negative. -/
theorem allNonneg_maximumf_right {a b : FVec Ideal s .f32} (ha : AllReal a) (hb : AllNonneg b) :
    AllNonneg (Idealize.ShloMosaic.maximumf a b) := fun i => by
  obtain ⟨x, hx⟩ := ha i; obtain ⟨y, hy0, hy⟩ := hb i
  exact ⟨max x y, le_max_of_le_right hy0, by show max (a i) (b i) = _; rw [hx, hy, coe_max_real]⟩

/-- A maximum with minus infinity on the left is the right operand. -/
theorem allReal_maximumf_bot_left {a b : FVec Ideal s .f32} (ha : ∀ i, a i = ⊥) (hb : AllReal b) :
    AllReal (Idealize.ShloMosaic.maximumf a b) := fun i => by
  obtain ⟨y, hy⟩ := hb i
  exact ⟨y, by show max (a i) (b i) = _; rw [ha i, hy, max_eq_right bot_le]⟩

/-! ### Selection -/

theorem allReal_select {c : IVec s 1} {a b : FVec Ideal s .f32} (ha : AllReal a) (hb : AllReal b) :
    AllReal (Idealize.ShloMosaic.select c a b) := fun i => by
  show ∃ r : ℝ, Scalar.select (c i) (a i) (b i) = _
  unfold Scalar.select; split
  · exact ha i
  · exact hb i

theorem allPos_select {c : IVec s 1} {a b : FVec Ideal s .f32} (ha : AllPos a) (hb : AllPos b) :
    AllPos (Idealize.ShloMosaic.select c a b) := fun i => by
  show ∃ r : ℝ, 0 < r ∧ Scalar.select (c i) (a i) (b i) = _
  unfold Scalar.select; split
  · exact ha i
  · exact hb i

theorem allNonneg_select {c : IVec s 1} {a b : FVec Ideal s .f32} (ha : AllNonneg a) (hb : AllNonneg b) :
    AllNonneg (Idealize.ShloMosaic.select c a b) := fun i => by
  show ∃ r : ℝ, 0 ≤ r ∧ Scalar.select (c i) (a i) (b i) = _
  unfold Scalar.select; split
  · exact ha i
  · exact hb i

/-- A selection whose condition holds everywhere is its first branch; one whose condition fails everywhere, its second. -/
theorem select_eq_left {α : Type} {c : IVec s 1} (hc : ∀ i, c i = 1) (a b : s.Idx → α) :
    Idealize.ShloMosaic.select c a b = a := funext fun i => by
  show Scalar.select (c i) (a i) (b i) = a i
  unfold Scalar.select; rw [if_pos (hc i)]
theorem select_eq_right {α : Type} {c : IVec s 1} (hc : ∀ i, c i ≠ 1) (a b : s.Idx → α) :
    Idealize.ShloMosaic.select c a b = b := funext fun i => by
  show Scalar.select (c i) (a i) (b i) = b i
  unfold Scalar.select; rw [if_neg (hc i)]

theorem allReal_select_left {c : IVec s 1} {a b : FVec Ideal s .f32} (hc : ∀ i, c i = 1) (ha : AllReal a) :
    AllReal (Idealize.ShloMosaic.select c a b) := by rw [select_eq_left hc]; exact ha
theorem allPos_select_left {c : IVec s 1} {a b : FVec Ideal s .f32} (hc : ∀ i, c i = 1) (ha : AllPos a) :
    AllPos (Idealize.ShloMosaic.select c a b) := by rw [select_eq_left hc]; exact ha
theorem allNonneg_select_left {c : IVec s 1} {a b : FVec Ideal s .f32} (hc : ∀ i, c i = 1) (ha : AllNonneg a) :
    AllNonneg (Idealize.ShloMosaic.select c a b) := by rw [select_eq_left hc]; exact ha

/-- An integer converted to a float is real. -/
theorem allReal_sitofp {w : Nat} (x : IVec s w) : AllReal (Idealize.ShloMosaic.sitofp (F := Ideal) .f32 x) :=
  fun i => ⟨((x i).toInt : ℝ), rfl⟩

end Pointwise

/-! ## Re-indexing operations

Each of these reads every result element off some operand element, so it preserves all three classes. -/

section Reindex
variable {s t : Shape}

theorem allReal_broadcastInDim (dims : Fin s.rank → Fin t.rank) (h : s.BroadcastsInDim t dims) {x : FVec Ideal s .f32}
    (hx : AllReal x) : AllReal (broadcastInDim t dims h x) := fun _ => hx _
theorem allPos_broadcastInDim (dims : Fin s.rank → Fin t.rank) (h : s.BroadcastsInDim t dims) {x : FVec Ideal s .f32}
    (hx : AllPos x) : AllPos (broadcastInDim t dims h x) := fun _ => hx _
theorem allNonneg_broadcastInDim (dims : Fin s.rank → Fin t.rank) (h : s.BroadcastsInDim t dims) {x : FVec Ideal s .f32}
    (hx : AllNonneg x) : AllNonneg (broadcastInDim t dims h x) := fun _ => hx _

/-- A broadcast of an array that is minus infinity everywhere is minus infinity everywhere. -/
theorem broadcastInDim_bot (dims : Fin s.rank → Fin t.rank) (h : s.BroadcastsInDim t dims) {x : FVec Ideal s .f32}
    (hx : ∀ i, x i = ⊥) : ∀ j, broadcastInDim t dims h x j = ⊥ := fun _ => hx _

theorem allReal_shapeCast (h : s.ShapeCasts t) {x : FVec Ideal s .f32} (hx : AllReal x) : AllReal (shapeCast t x h) :=
  fun _ => hx _
theorem allPos_shapeCast (h : s.ShapeCasts t) {x : FVec Ideal s .f32} (hx : AllPos x) : AllPos (shapeCast t x h) :=
  fun _ => hx _
theorem allNonneg_shapeCast (h : s.ShapeCasts t) {x : FVec Ideal s .f32} (hx : AllNonneg x) :
    AllNonneg (shapeCast t x h) := fun _ => hx _

theorem allReal_extractStridedSlice (off : Fin s.rank → Nat) (h : s.Slices off t) {x : FVec Ideal s .f32}
    (hx : AllReal x) : AllReal (extractStridedSlice t off x h) := fun _ => hx _
theorem allPos_extractStridedSlice (off : Fin s.rank → Nat) (h : s.Slices off t) {x : FVec Ideal s .f32}
    (hx : AllPos x) : AllPos (extractStridedSlice t off x h) := fun _ => hx _
theorem allNonneg_extractStridedSlice (off : Fin s.rank → Nat) (h : s.Slices off t) {x : FVec Ideal s .f32}
    (hx : AllNonneg x) : AllNonneg (extractStridedSlice t off x h) := fun _ => hx _

/-- A gather reads each result element off the operand (at a clamped index): no fill value. -/
theorem allReal_gather {si : Shape} {w : Nat} (d : GatherDims s si t) {x : FVec Ideal s .f32} (idx : IVec si w)
    (hx : AllReal x) : AllReal (Host.gather d x idx) := fun _ => hx _
theorem allPos_gather {si : Shape} {w : Nat} (d : GatherDims s si t) {x : FVec Ideal s .f32} (idx : IVec si w)
    (hx : AllPos x) : AllPos (Host.gather d x idx) := fun _ => hx _
theorem allNonneg_gather {si : Shape} {w : Nat} (d : GatherDims s si t) {x : FVec Ideal s .f32} (idx : IVec si w)
    (hx : AllNonneg x) : AllNonneg (Host.gather d x idx) := fun _ => hx _

end Reindex

/-! ## Constants

A 32-bit pattern whose exponent field is not all ones denotes a real number; with a clear sign bit and a
non-zero exponent field, a positive one. -/

section Constants

/-- What a 32-bit pattern denotes, by its fields. -/
theorem ofBits_f32_cases (b : BitVec 32) :
    Ideal.ofBits .f32 b =
      if (b.extractLsb' 23 8).toNat = 255 then
        (if (b.extractLsb' 0 23).toNat = 0 then (if (b.extractLsb' 31 1 == 1#1) then ⊥ else ⊤) else ⊥)
      else if (b.extractLsb' 23 8).toNat = 0 then
        (((if (b.extractLsb' 31 1 == 1#1) then (-1 : ℝ) else 1) * ((b.extractLsb' 0 23).toNat : ℝ)
          * (2 : ℝ) ^ (1 - (2 ^ (8 - 1) - 1 : Int) - (23 : Nat) : Int) : ℝ) : EReal)
      else
        (((if (b.extractLsb' 31 1 == 1#1) then (-1 : ℝ) else 1) * ((2 ^ 23 + (b.extractLsb' 0 23).toNat : Nat) : ℝ)
          * (2 : ℝ) ^ ((((b.extractLsb' 23 8).toNat : Nat) : Int) - (2 ^ (8 - 1) - 1 : Int) - (23 : Nat)) : ℝ) : EReal) := rfl

theorem ofBits_f32_real (b : BitVec 32) (h : (b.extractLsb' 23 8).toNat ≠ 255) :
    ∃ r : ℝ, Ideal.ofBits .f32 b = (r : EReal) := by
  rw [ofBits_f32_cases, if_neg h]
  split <;> exact ⟨_, rfl⟩

theorem ofBits_f32_pos (b : BitVec 32) (hs : (b.extractLsb' 31 1 == 1#1) = false)
    (h : (b.extractLsb' 23 8).toNat ≠ 255) (h0 : (b.extractLsb' 23 8).toNat ≠ 0) :
    ∃ r : ℝ, 0 < r ∧ Ideal.ofBits .f32 b = (r : EReal) := by
  rw [ofBits_f32_cases, if_neg h, if_neg h0, hs]
  refine ⟨_, ?_, rfl⟩
  simp only [Bool.false_eq_true, if_false]
  positivity

/-- The pattern of minus infinity. -/
theorem ofBits_f32_FF800000 : Ideal.ofBits .f32 0xFF800000#32 = ⊥ := by
  rw [ofBits_f32_cases, if_pos (by decide), if_pos (by decide), if_pos (by decide)]

theorem allReal_constant (s : Shape) (b : BitVec 32) (h : (b.extractLsb' 23 8).toNat ≠ 255) :
    AllReal (constant (F := Ideal) s .f32 b) := fun _ => ofBits_f32_real b h

theorem allPos_constant (s : Shape) (b : BitVec 32) (hs : (b.extractLsb' 31 1 == 1#1) = false)
    (h : (b.extractLsb' 23 8).toNat ≠ 255) (h0 : (b.extractLsb' 23 8).toNat ≠ 0) :
    AllPos (constant (F := Ideal) s .f32 b) := fun _ => ofBits_f32_pos b hs h h0

/-- The zero pattern. -/
theorem allNonneg_constant_00000000 (s : Shape) : AllNonneg (constant (F := Ideal) s .f32 0x00000000#32) :=
  fun _ => ⟨0, le_rfl, by show Ideal.ofBits .f32 0x00000000#32 = _; rw [Ideal.ofBits_zero_f32, EReal.coe_zero]⟩
theorem allReal_constant_00000000 (s : Shape) : AllReal (constant (F := Ideal) s .f32 0x00000000#32) :=
  (allNonneg_constant_00000000 s).allReal

/-- Minus one half. -/
theorem allReal_constant_BF000000 (s : Shape) : AllReal (constant (F := Ideal) s .f32 0xBF000000#32) :=
  allReal_constant s _ (by decide)

/-- Minus infinity. -/
theorem constant_FF800000 (s : Shape) (i : s.Idx) : constant (F := Ideal) s .f32 0xFF800000#32 i = ⊥ :=
  ofBits_f32_FF800000

theorem allPos_constant_3F800000 (s : Shape) : AllPos (constant (F := Ideal) s .f32 0x3F800000#32) :=
  allPos_constant s _ (by decide) (by decide) (by decide)
theorem allPos_constant_2B8CBCCC (s : Shape) : AllPos (constant (F := Ideal) s .f32 0x2B8CBCCC#32) :=
  allPos_constant s _ (by decide) (by decide) (by decide)
theorem allPos_constant_41200000 (s : Shape) : AllPos (constant (F := Ideal) s .f32 0x41200000#32) :=
  allPos_constant s _ (by decide) (by decide) (by decide)
theorem allPos_constant_3F000000 (s : Shape) : AllPos (constant (F := Ideal) s .f32 0x3F000000#32) :=
  allPos_constant s _ (by decide) (by decide) (by decide)
theorem allPos_constant_3727C5AC (s : Shape) : AllPos (constant (F := Ideal) s .f32 0x3727C5AC#32) :=
  allPos_constant s _ (by decide) (by decide) (by decide)
theorem allPos_constant_47C35000 (s : Shape) : AllPos (constant (F := Ideal) s .f32 0x47C35000#32) :=
  allPos_constant s _ (by decide) (by decide) (by decide)

/-! The same constants broadcast. -/

variable {s t : Shape} (dims : Fin s.rank → Fin t.rank) (h : s.BroadcastsInDim t dims)

theorem allNonneg_broadcast_constant_00000000 :
    AllNonneg (broadcastInDim t dims h (constant (F := Ideal) s .f32 0x00000000#32)) :=
  allNonneg_broadcastInDim dims h (allNonneg_constant_00000000 s)
theorem allReal_broadcast_constant_00000000 :
    AllReal (broadcastInDim t dims h (constant (F := Ideal) s .f32 0x00000000#32)) :=
  allReal_broadcastInDim dims h (allReal_constant_00000000 s)
theorem allReal_broadcast_constant_BF000000 :
    AllReal (broadcastInDim t dims h (constant (F := Ideal) s .f32 0xBF000000#32)) :=
  allReal_broadcastInDim dims h (allReal_constant_BF000000 s)
theorem broadcast_constant_FF800000 (j : t.Idx) :
    broadcastInDim t dims h (constant (F := Ideal) s .f32 0xFF800000#32) j = ⊥ :=
  broadcastInDim_bot dims h (constant_FF800000 s) j
theorem allPos_broadcast_constant_3F800000 :
    AllPos (broadcastInDim t dims h (constant (F := Ideal) s .f32 0x3F800000#32)) :=
  allPos_broadcastInDim dims h (allPos_constant_3F800000 s)
theorem allPos_broadcast_constant_2B8CBCCC :
    AllPos (broadcastInDim t dims h (constant (F := Ideal) s .f32 0x2B8CBCCC#32)) :=
  allPos_broadcastInDim dims h (allPos_constant_2B8CBCCC s)
theorem allPos_broadcast_constant_41200000 :
    AllPos (broadcastInDim t dims h (constant (F := Ideal) s .f32 0x41200000#32)) :=
  allPos_broadcastInDim dims h (allPos_constant_41200000 s)
theorem allPos_broadcast_constant_3F000000 :
    AllPos (broadcastInDim t dims h (constant (F := Ideal) s .f32 0x3F000000#32)) :=
  allPos_broadcastInDim dims h (allPos_constant_3F000000 s)
theorem allPos_broadcast_constant_3727C5AC :
    AllPos (broadcastInDim t dims h (constant (F := Ideal) s .f32 0x3727C5AC#32)) :=
  allPos_broadcastInDim dims h (allPos_constant_3727C5AC s)
theorem allPos_broadcast_constant_47C35000 :
    AllPos (broadcastInDim t dims h (constant (F := Ideal) s .f32 0x47C35000#32)) :=
  allPos_broadcastInDim dims h (allPos_constant_47C35000 s)

end Constants

/-! ## Finite sums

A finite sum of reals is real; of non-negative reals, non-negative; of positive reals over a non-empty
index set, positive. -/

section Sums
variable {ι : Type}

theorem sum_real (S : Finset ι) (f : ι → EReal) (hf : ∀ i ∈ S, ∃ r : ℝ, f i = (r : EReal)) :
    ∃ r : ℝ, ∑ i ∈ S, f i = (r : EReal) := by
  induction S using Finset.cons_induction with
  | empty => exact ⟨0, by rw [Finset.sum_empty, EReal.coe_zero]⟩
  | cons a S ha ih =>
    obtain ⟨x, hx⟩ := hf a (Finset.mem_cons_self a S)
    obtain ⟨y, hy⟩ := ih (fun i hi => hf i (Finset.mem_cons.2 (Or.inr hi)))
    exact ⟨x + y, by rw [Finset.sum_cons, hx, hy, EReal.coe_add]⟩

theorem sum_nonneg_real (S : Finset ι) (f : ι → EReal) (hf : ∀ i ∈ S, ∃ r : ℝ, 0 ≤ r ∧ f i = (r : EReal)) :
    ∃ r : ℝ, 0 ≤ r ∧ ∑ i ∈ S, f i = (r : EReal) := by
  induction S using Finset.cons_induction with
  | empty => exact ⟨0, le_rfl, by rw [Finset.sum_empty, EReal.coe_zero]⟩
  | cons a S ha ih =>
    obtain ⟨x, hx0, hx⟩ := hf a (Finset.mem_cons_self a S)
    obtain ⟨y, hy0, hy⟩ := ih (fun i hi => hf i (Finset.mem_cons.2 (Or.inr hi)))
    exact ⟨x + y, add_nonneg hx0 hy0, by rw [Finset.sum_cons, hx, hy, EReal.coe_add]⟩

theorem sum_pos_real (S : Finset ι) (hS : S.Nonempty) (f : ι → EReal)
    (hf : ∀ i ∈ S, ∃ r : ℝ, 0 < r ∧ f i = (r : EReal)) : ∃ r : ℝ, 0 < r ∧ ∑ i ∈ S, f i = (r : EReal) := by
  classical
  obtain ⟨a, ha⟩ := hS
  obtain ⟨x, hx0, hx⟩ := hf a ha
  obtain ⟨y, hy0, hy⟩ := sum_nonneg_real (S.erase a) f (fun i hi => by
    obtain ⟨r, hr, e⟩ := hf i (Finset.mem_of_mem_erase hi); exact ⟨r, hr.le, e⟩)
  exact ⟨x + y, add_pos_of_pos_of_nonneg hx0 hy0, by rw [← Finset.add_sum_erase S f ha, hx, hy, EReal.coe_add]⟩

end Sums

/-! ## The additive reduction, the additive scatter, the matrix product -/

section Contractions

/-- The additive reduction: the initial value plus the sum of the elements that reduce to the index. -/
theorem allReal_reduceAdd {s t u : Shape} {axes : List (Fin s.rank)} {x : FVec Ideal s .f32}
    {init : FVec Ideal u .f32} {h : s.ReducesTo axes t} {hu : 0 < u.numel} (hx : AllReal x) (hinit : AllReal init) :
    AllReal (Host.reduceAdd x init h hu) := fun j => by
  obtain ⟨a, ha⟩ := hinit (Shape.Idx.first hu)
  obtain ⟨b, hb⟩ := sum_real (Finset.univ.filter fun i => h.drop i = j) x (fun i _ => hx i)
  exact ⟨a + b, by
    show init (Shape.Idx.first hu) + ∑ i ∈ Finset.univ.filter (fun i => h.drop i = j), x i = _
    rw [ha, hb, EReal.coe_add]⟩

theorem allNonneg_reduceAdd {s t u : Shape} {axes : List (Fin s.rank)} {x : FVec Ideal s .f32}
    {init : FVec Ideal u .f32} {h : s.ReducesTo axes t} {hu : 0 < u.numel} (hx : AllNonneg x) (hinit : AllNonneg init) :
    AllNonneg (Host.reduceAdd x init h hu) := fun j => by
  obtain ⟨a, ha0, ha⟩ := hinit (Shape.Idx.first hu)
  obtain ⟨b, hb0, hb⟩ := sum_nonneg_real (Finset.univ.filter fun i => h.drop i = j) x (fun i _ => hx i)
  exact ⟨a + b, add_nonneg ha0 hb0, by
    show init (Shape.Idx.first hu) + ∑ i ∈ Finset.univ.filter (fun i => h.drop i = j), x i = _
    rw [ha, hb, EReal.coe_add]⟩

/-- A sum of positive elements from a non-negative initial value is positive when every result index has an
    element reducing to it. -/
theorem allPos_reduceAdd {s t u : Shape} {axes : List (Fin s.rank)} {x : FVec Ideal s .f32}
    {init : FVec Ideal u .f32} {h : s.ReducesTo axes t} {hu : 0 < u.numel} (hx : AllPos x) (hinit : AllNonneg init)
    (hne : ∀ j, ∃ i, h.drop i = j) : AllPos (Host.reduceAdd x init h hu) := fun j => by
  obtain ⟨a, ha0, ha⟩ := hinit (Shape.Idx.first hu)
  obtain ⟨i0, hi0⟩ := hne j
  obtain ⟨b, hb0, hb⟩ := sum_pos_real (Finset.univ.filter fun i => h.drop i = j)
    ⟨i0, Finset.mem_filter.2 ⟨Finset.mem_univ _, hi0⟩⟩ x (fun i _ => hx i)
  exact ⟨a + b, add_pos_of_nonneg_of_pos ha0 hb0, by
    show init (Shape.Idx.first hu) + ∑ i ∈ Finset.univ.filter (fun i => h.drop i = j), x i = _
    rw [ha, hb, EReal.coe_add]⟩

/-- Reducing one axis of positive size onto a result of positive rank: every result index is reached. -/
theorem drop_surjective_single {s t : Shape} {a : Fin s.rank} (h : s.ReducesTo [a] t) (ht : 0 < t.rank)
    (ha : 0 < s.size a) (j : t.Idx) : ∃ i, h.drop i = j := by
  have hR : s.Reduces [a] t := ⟨h.1, ht, h.2⟩
  exact ⟨hR.lift j ⟨0, ha⟩, by rw [Shape.ReducesTo.drop_eq_drop h hR]; exact hR.drop_lift j _⟩

/-- The additive scatter: each operand element plus a finite sum of update elements. -/
theorem allReal_scatterAdd {s si su : Shape} {w : Nat} (d : ScatterDims s si su) {x : FVec Ideal s .f32}
    (idx : IVec si w) {upd : FVec Ideal su .f32} (hx : AllReal x) (hupd : AllReal upd) :
    AllReal (Host.scatterAdd d x idx upd) := fun i => by
  obtain ⟨a, ha⟩ := hx i
  obtain ⟨b, hb⟩ := sum_real (Finset.univ.filter fun j => d.resultIdx? j idx = some i) upd (fun j _ => hupd j)
  exact ⟨a + b, by
    show x i + ∑ j ∈ Finset.univ.filter (fun j => d.resultIdx? j idx = some i), upd j = _
    rw [ha, hb, EReal.coe_add]⟩

theorem allNonneg_scatterAdd {s si su : Shape} {w : Nat} (d : ScatterDims s si su) {x : FVec Ideal s .f32}
    (idx : IVec si w) {upd : FVec Ideal su .f32} (hx : AllNonneg x) (hupd : AllNonneg upd) :
    AllNonneg (Host.scatterAdd d x idx upd) := fun i => by
  obtain ⟨a, ha0, ha⟩ := hx i
  obtain ⟨b, hb0, hb⟩ := sum_nonneg_real (Finset.univ.filter fun j => d.resultIdx? j idx = some i) upd (fun j _ => hupd j)
  exact ⟨a + b, add_nonneg ha0 hb0, by
    show x i + ∑ j ∈ Finset.univ.filter (fun j => d.resultIdx? j idx = some i), upd j = _
    rw [ha, hb, EReal.coe_add]⟩

/-- The matrix product: a finite sum of products. -/
theorem allReal_dotGeneral {sl sr so : Shape} (d : DotDims sl sr so) (prec : Option ContractPrecision)
    {lhs : FVec Ideal sl .f32} {rhs : FVec Ideal sr .f32} (hl : AllReal lhs) (hr : AllReal rhs) :
    AllReal (Host.dotGeneral d prec lhs rhs) := fun j => by
  obtain ⟨b, hb⟩ := sum_real (Finset.univ : Finset d.contr.Idx) (fun k => lhs (d.lhsIdx j k) * rhs (d.rhsIdx j k))
    (fun k _ => by
      obtain ⟨x, hx⟩ := hl (d.lhsIdx j k); obtain ⟨y, hy⟩ := hr (d.rhsIdx j k)
      exact ⟨x * y, by rw [hx, hy, EReal.coe_mul]⟩)
  exact ⟨b, by
    show FloatOps.dotGeneral d prec .single lhs rhs j = _
    rw [Ideal.dotGeneral_apply]; exact hb⟩

theorem allNonneg_dotGeneral {sl sr so : Shape} (d : DotDims sl sr so) (prec : Option ContractPrecision)
    {lhs : FVec Ideal sl .f32} {rhs : FVec Ideal sr .f32} (hl : AllNonneg lhs) (hr : AllNonneg rhs) :
    AllNonneg (Host.dotGeneral d prec lhs rhs) := fun j => by
  obtain ⟨b, hb0, hb⟩ := sum_nonneg_real (Finset.univ : Finset d.contr.Idx)
    (fun k => lhs (d.lhsIdx j k) * rhs (d.rhsIdx j k))
    (fun k _ => by
      obtain ⟨x, hx0, hx⟩ := hl (d.lhsIdx j k); obtain ⟨y, hy0, hy⟩ := hr (d.rhsIdx j k)
      exact ⟨x * y, mul_nonneg hx0 hy0, by rw [hx, hy, EReal.coe_mul]⟩)
  exact ⟨b, hb0, by
    show FloatOps.dotGeneral d prec .single lhs rhs j = _
    rw [Ideal.dotGeneral_apply]; exact hb⟩

end Contractions

/-! ## The maximum reduction

A left fold of the maximum from minus infinity (or a real) over a non-empty list of reals is real. -/

section MaxReduce

theorem foldl_max_real {ι : Type} (x : ι → EReal) (hx : ∀ i, ∃ r : ℝ, x i = (r : EReal)) :
    ∀ (L : List ι) (a : EReal), (a = ⊥ ∨ ∃ r : ℝ, a = (r : EReal)) → (L ≠ [] ∨ ∃ r : ℝ, a = (r : EReal)) →
      ∃ r : ℝ, L.foldl (fun r i => max r (x i)) a = (r : EReal)
  | [], a, _, h2 => by
    rcases h2 with h | h
    · exact absurd rfl h
    · exact h
  | i :: L, a, h1, _ => by
    have hreal : ∃ r : ℝ, max a (x i) = (r : EReal) := by
      obtain ⟨y, hy⟩ := hx i
      rcases h1 with h | ⟨z, hz⟩
      · exact ⟨y, by rw [h, hy, max_eq_right bot_le]⟩
      · exact ⟨max z y, by rw [hz, hy, coe_max_real]⟩
    rw [List.foldl_cons]
    exact foldl_max_real x hx L _ (Or.inr hreal) (Or.inr hreal)

/-- The maximum reduction of a real-valued array from minus infinity or a real, every result index reached. -/
theorem allReal_reduce_maximumf {s t u : Shape} {axes : List (Fin s.rank)} {x : FVec Ideal s .f32}
    {init : FVec Ideal u .f32} {h : s.ReducesTo axes t} {hu : 0 < u.numel} (hx : AllReal x)
    (hinit : init (Shape.Idx.first hu) = ⊥ ∨ ∃ r : ℝ, init (Shape.Idx.first hu) = (r : EReal))
    (hne : ∀ j, ∃ i, h.drop i = j) :
    AllReal (Host.reduce FloatOps.maximumf x init h hu) := fun j => by
  rw [Host.reduce_eq_foldl]
  obtain ⟨i0, hi0⟩ := hne j
  exact foldl_max_real x hx _ _ hinit (Or.inl (List.ne_nil_of_mem (List.mem_filter.2
    ⟨List.mem_map.2 ⟨s.rowMajor i0, List.mem_finRange _, Equiv.symm_apply_apply _ _⟩, by simpa using hi0⟩)))

/-- The same from the pattern of minus infinity. -/
theorem allReal_reduce_maximumf_FF800000 {s t u : Shape} {axes : List (Fin s.rank)} {x : FVec Ideal s .f32}
    {h : s.ReducesTo axes t} {hu : 0 < u.numel} (hx : AllReal x) (hne : ∀ j, ∃ i, h.drop i = j) :
    AllReal (Host.reduce FloatOps.maximumf x (constant (F := Ideal) u .f32 0xFF800000#32) h hu) :=
  allReal_reduce_maximumf hx (Or.inl (constant_FF800000 u _)) hne

end MaxReduce

/-! ## Concatenation -/

section Concat

theorem allReal_concatenate (t : Shape) (a : Fin t.rank) (xs : List ((s : Shape) × (s.Idx → EReal)))
    (h : Shape.Concatenates (xs.map (·.1)) t a) (hxs : ∀ p ∈ xs, AllReal p.2) : AllReal (concatenate t a xs h) :=
  fun _ => hxs _ (List.getElem_mem _) _
theorem allPos_concatenate (t : Shape) (a : Fin t.rank) (xs : List ((s : Shape) × (s.Idx → EReal)))
    (h : Shape.Concatenates (xs.map (·.1)) t a) (hxs : ∀ p ∈ xs, AllPos p.2) : AllPos (concatenate t a xs h) :=
  fun _ => hxs _ (List.getElem_mem _) _
theorem allNonneg_concatenate (t : Shape) (a : Fin t.rank) (xs : List ((s : Shape) × (s.Idx → EReal)))
    (h : Shape.Concatenates (xs.map (·.1)) t a) (hxs : ∀ p ∈ xs, AllNonneg p.2) : AllNonneg (concatenate t a xs h) :=
  fun _ => hxs _ (List.getElem_mem _) _

/-- Three pieces. -/
theorem allReal_concatenate₃ {t : Shape} {a : Fin t.rank} {s₁ s₂ s₃ : Shape} {x₁ : FVec Ideal s₁ .f32}
    {x₂ : FVec Ideal s₂ .f32} {x₃ : FVec Ideal s₃ .f32}
    {h : Shape.Concatenates (([⟨s₁, x₁⟩, ⟨s₂, x₂⟩, ⟨s₃, x₃⟩] : List ((s : Shape) × (s.Idx → EReal))).map (·.1)) t a}
    (h₁ : AllReal x₁) (h₂ : AllReal x₂) (h₃ : AllReal x₃) :
    AllReal (concatenate t a [⟨s₁, x₁⟩, ⟨s₂, x₂⟩, ⟨s₃, x₃⟩] h) :=
  allReal_concatenate t a _ h (by
    intro p hp
    simp only [List.mem_cons, List.not_mem_nil, or_false] at hp
    rcases hp with rfl | rfl | rfl
    · exact h₁
    · exact h₂
    · exact h₃)
theorem allNonneg_concatenate₃ {t : Shape} {a : Fin t.rank} {s₁ s₂ s₃ : Shape} {x₁ : FVec Ideal s₁ .f32}
    {x₂ : FVec Ideal s₂ .f32} {x₃ : FVec Ideal s₃ .f32}
    {h : Shape.Concatenates (([⟨s₁, x₁⟩, ⟨s₂, x₂⟩, ⟨s₃, x₃⟩] : List ((s : Shape) × (s.Idx → EReal))).map (·.1)) t a}
    (h₁ : AllNonneg x₁) (h₂ : AllNonneg x₂) (h₃ : AllNonneg x₃) :
    AllNonneg (concatenate t a [⟨s₁, x₁⟩, ⟨s₂, x₂⟩, ⟨s₃, x₃⟩] h) :=
  allNonneg_concatenate t a _ h (by
    intro p hp
    simp only [List.mem_cons, List.not_mem_nil, or_false] at hp
    rcases hp with rfl | rfl | rfl
    · exact h₁
    · exact h₂
    · exact h₃)

end Concat

end Cert.LibFinite
-- ==== Proof.FiniteInputs.lean ====
/-
  What the precondition says, element by element.

  The precondition is `all(|x| < +∞) ∧ all(|scale| < +∞)`: two reductions by `and` of elementwise comparisons against
  the pattern of +∞. Each reduction being 1 gives the comparison at every index, and an extended real whose absolute
  value `max x (−x)` is strictly below +∞ is neither infinity: it is a real number. So under the precondition the
  activations and the per-row scales are real-valued arrays.
-/
import proofs.«412565_j29394756174133_2_alg».proof.Pre_finite_inputs
import proofs.«412565_j29394756174133_2_alg».proof.Proof.LibFinite
import Idealize.ShloMosaic.Lib.ReduceAll
import Idealize.ShloMosaic.PureOps.Ideal

noncomputable section

namespace Cert.ScaledGemm

open Idealize.ShloMosaic Cert.Pre_finite_inputs Cert.LibFinite

variable [Cert.Pre_finite_inputs.Facts]

/-- The scalar shape has one index. -/
instance subsingleton_scalar_idx : Subsingleton S_.Idx := ⟨fun _ _ => funext fun d => d.elim0⟩

/-- The pattern `0x7F800000` is +∞. -/
theorem ofBits_pos_inf : Ideal.ofBits .f32 0x7F800000#32 = ⊤ := by
  simp [Ideal.ofBits, Ideal.ieee]

/-- An extended real whose absolute value is strictly below +∞ is a real number. -/
theorem real_of_abs_lt_top (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- Under the precondition the activations and the scales are real-valued. -/
theorem allReal_of_pre (x : FVec Ideal S4x2048x4096 .f32) (p : IVec S11272192 32) (s : FVec Ideal S11008x1 .f32)
    (h : fn (F := Ideal) x p s = fun _ => 1#1) : AllReal x ∧ AllReal s := by
  have h0 := congrFun h (fun a => a.elim0)
  dsimp only [fn] at h0
  obtain ⟨h1, h2⟩ := IntOp.andi_eq_one.1 h0
  refine ⟨fun i => ?_, fun i => ?_⟩
  · have h3 := Host.reduce_andi_all _ _ _ _ _ h1 i
    have h4 : Ideal.cmp .olt (max (x i) (-(x i))) (Ideal.ofBits .f32 0x7F800000#32) = 1#1 := h3
    rw [ofBits_pos_inf] at h4
    exact real_of_abs_lt_top _ h4
  · have h3 := Host.reduce_andi_all _ _ _ _ _ h2 i
    have h4 : Ideal.cmp .olt (max (s i) (-(s i))) (Ideal.ofBits .f32 0x7F800000#32) = 1#1 := h3
    rw [ofBits_pos_inf] at h4
    exact real_of_abs_lt_top _ h4

end Cert.ScaledGemm

end
-- ==== Proof.BlockProduct.lean ====
/-
  The kernel body's one store, read at an index.

  At a grid point the body holds a [2048, 4096] block `a` of activations, a [256, 4096] block `w` of weights and a
  [1, 256] row `s` of scales, and stores `(a · wᵀ) ⊙ s`: the matrix unit's product into a zero accumulator, contracted
  over the shared axis of length 4096, multiplied by the scale row broadcast down the rows. At exact arithmetic the
  element in row `p` and column `j` is therefore `(∑ₖ a[p, k] · w[j, k]) · s[0, j]`.
-/
import proofs.«412565_j29394756174133_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.ValueIdx
open scoped BigOperators

/-! The operand indices of the block product, axis by axis: the left operand is read at (output row, k), the right at
    (output column, k). -/

theorem lhs_row (i : S2048x256.Idx) (q : dot_S2048x4096_S256x4096_S2048x256_1_1_0_0_n_n.contr.Idx) :
    (dot_S2048x4096_S256x4096_S2048x256_1_1_0_0_n_n.lhsIdx i q 0).val = (i 0).val := by
  unfold DotDims.lhsIdx
  rw [dif_neg (show ¬(0 : Fin S2048x4096.rank) ∈ dot_S2048x4096_S256x4096_S2048x256_1_1_0_0_n_n.lhsBatch by decide), dif_pos (show (0 : Fin S2048x4096.rank) ∈ dot_S2048x4096_S256x4096_S2048x256_1_1_0_0_n_n.lhsNonContracting by decide)]
  rfl
theorem lhs_contr (i : S2048x256.Idx) (q : dot_S2048x4096_S256x4096_S2048x256_1_1_0_0_n_n.contr.Idx) :
    (dot_S2048x4096_S256x4096_S2048x256_1_1_0_0_n_n.lhsIdx i q 1).val = (q ⟨0, by decide⟩).val :=
  dot_S2048x4096_S256x4096_S2048x256_1_1_0_0_n_n.lhsIdx_val_of_single rfl i q
theorem rhs_row (i : S2048x256.Idx) (q : dot_S2048x4096_S256x4096_S2048x256_1_1_0_0_n_n.contr.Idx) :
    (dot_S2048x4096_S256x4096_S2048x256_1_1_0_0_n_n.rhsIdx i q 0).val = (i 1).val := by
  unfold DotDims.rhsIdx
  rw [dif_neg (show ¬(0 : Fin S256x4096.rank) ∈ dot_S2048x4096_S256x4096_S2048x256_1_1_0_0_n_n.rhsBatch by decide), dif_pos (show (0 : Fin S256x4096.rank) ∈ dot_S2048x4096_S256x4096_S2048x256_1_1_0_0_n_n.rhsNonContracting by decide)]
  rfl
theorem rhs_contr (i : S2048x256.Idx) (q : dot_S2048x4096_S256x4096_S2048x256_1_1_0_0_n_n.contr.Idx) :
    (dot_S2048x4096_S256x4096_S2048x256_1_1_0_0_n_n.rhsIdx i q 1).val = (q ⟨0, by decide⟩).val :=
  dot_S2048x4096_S256x4096_S2048x256_1_1_0_0_n_n.rhsIdx_val_of_single rfl i q

/-- The block product into the zero accumulator, at row `p` and column `j`: the inner product of row `p` of the
    activations with row `j` of the weights. -/
theorem blockProduct_apply (a : FVec Ideal S2048x4096 .bf16) (w : FVec Ideal S256x4096 .bf16) (p : Fin 2048) (j : Fin 256) :
    matmul (F := Ideal) dot_S2048x4096_S256x4096_S2048x256_1_1_0_0_n_n none a w (constant S2048x256 .f32 0x00000000#32) (ix2 p j)
      = ∑ k : Fin 4096, a (ix2 p k) * w (ix2 j k) := by
  show FloatOps.matmul _ _ a w _ _ = _
  rw [Ideal.matmul_constant_zero_apply, ← Equiv.sum_comp (ValueIdx.contrEquiv1 dot_S2048x4096_S256x4096_S2048x256_1_1_0_0_n_n 4096 rfl rfl).symm]
  refine Finset.sum_congr rfl fun k _ => ?_
  have hk := ValueIdx.contrEquiv1_symm_val dot_S2048x4096_S256x4096_S2048x256_1_1_0_0_n_n 4096 rfl rfl k
  have el : dot_S2048x4096_S256x4096_S2048x256_1_1_0_0_n_n.lhsIdx (ix2 p j) ((ValueIdx.contrEquiv1 dot_S2048x4096_S256x4096_S2048x256_1_1_0_0_n_n 4096 rfl rfl).symm k) = ix2 p k := funext fun d => Fin.ext (by
    match d with
    | ⟨0, _⟩ => exact lhs_row _ _
    | ⟨1, _⟩ => exact (lhs_contr _ _).trans hk)
  have er : dot_S2048x4096_S256x4096_S2048x256_1_1_0_0_n_n.rhsIdx (ix2 p j) ((ValueIdx.contrEquiv1 dot_S2048x4096_S256x4096_S2048x256_1_1_0_0_n_n 4096 rfl rfl).symm k) = ix2 j k := funext fun d => Fin.ext (by
    match d with
    | ⟨0, _⟩ => exact rhs_row _ _
    | ⟨1, _⟩ => exact (rhs_contr _ _).trans hk)
  rw [el, er]

/-- The scale row broadcast down the rows, at row `p` and column `j`, is the row's entry `j`. -/
theorem scaleRow_apply (s : FVec Ideal S1x256 .f32) (p : Fin 2048) (j : Fin 256) :
    broadcastTo S2048x256 s broadcasts_S1x256_S2048x256 (ix2 p j) = s (ix2 0 j) :=
  broadcastTo_apply s broadcasts_S1x256_S2048x256 (ix2 p j) (ix2 0 j) (fun d => match d with
    | ⟨0, _⟩ => by show (0 : Nat) = if (1 : Nat) = 1 then 0 else _; rw [if_pos rfl]
    | ⟨1, _⟩ => by show j.val = if (256 : Nat) = 1 then 0 else j.val; rw [if_neg (by decide)])

/-- What the body stores, at row `p` and column `j` of the output block. -/
theorem stored_apply (a : Vec Ideal S2048x4096 .bf16) (w : Vec Ideal S256x4096 .bf16) (s : Vec Ideal S1x256 .f32)
    (p : Fin 2048) (j : Fin 256) :
    k0_pay1 (F := Ideal) a w s (ix2 p j) = (∑ k : Fin 4096, a (ix2 p k) * w (ix2 j k)) * s (ix2 0 j) := by
  unfold k0_pay1
  simp only [shapeCast_self]
  show matmul (F := Ideal) dot_S2048x4096_S256x4096_S2048x256_1_1_0_0_n_n none a w (constant S2048x256 .f32 0x00000000#32) (ix2 p j)
      * broadcastTo S2048x256 s broadcasts_S1x256_S2048x256 (ix2 p j) = _
  rw [blockProduct_apply, scaleRow_apply]

end Cert.KernelIdeal.BlockProduct

end
-- ==== Proof.WholeProduct.lean ====
/-
  From the blocks the grid writes to the whole result.

  The grid has 4 × 43 points. Point (i, j) stages rows 2048·i … of the activations, rows 256·j … of the weights and
  columns 256·j … of the scale row, and writes back the [2048, 256] block at block position (i, j) of the
  [8192, 11008] result. Every block is a restriction of ONE function of the staged arrays,

      P[r, n] = (∑ₖ A[r, k] · W[n, k]) · S[0, n],

  because the body's stored element (row p, column q of the block) reads row p of the activation block, row q of the
  weight block and entry q of the scale block, and those are rows 2048·i + p, 256·j + q and column 256·j + q of the
  arrays. The 172 blocks tile the result, so after the region the array IS `P`; the host then reshapes it to
  [4, 2048, 11008].
-/
import proofs.«412565_j29394756174133_2_alg».proof.Proof.Gen.KernelIdeal.Frame
import proofs.«412565_j29394756174133_2_alg».proof.Proof.BlockProduct
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.WholeProduct

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open scoped BigOperators

variable (m : (ℓ : Loc nD τ sig) → Buf (Elt Ideal) ℓ) (ρ : Dev nD → PrngReg)

theorem zero_offsets : (![0, 0] : Fin 2 → Nat) = fun _ => 0 := funext fun a => by fin_cases a <;> rfl

/-- The whole result as one function of the staged arrays: row `r` of the activations against row `n` of the weights,
    times the scale of column `n`. -/
def scaledProduct (A : Vec Ideal S8192x4096 .bf16) (W : Vec Ideal S11008x4096 .bf16) (S : Vec Ideal S1x11008 .f32) :
    Vec Ideal S8192x11008 .f32 :=
  fun i => (∑ k : Fin 4096, A (ix2 (i 0) k) * W (ix2 (i 1) k)) * S (ix2 0 (i 1))

/-! The staged blocks and arrays, named at their literal types. -/

abbrev actBlock (c : Dev nD) (t : Fin cfg0.N) : Vec Ideal S2048x4096 .bf16 := iblk m c 0 t
abbrev wtBlock (c : Dev nD) (t : Fin cfg0.N) : Vec Ideal S256x4096 .bf16 := iblk m c 1 t
abbrev scBlock (c : Dev nD) (t : Fin cfg0.N) : Vec Ideal S1x256 .f32 := iblk m c 2 t
abbrev actArr (c : Dev nD) : Vec Ideal S8192x4096 .bf16 := V m c main_v1
abbrev wtArr (c : Dev nD) : Vec Ideal S11008x4096 .bf16 := V m c main_v17
abbrev scArr (c : Dev nD) : Vec Ideal S1x11008 .f32 := V m c main_v18

/-- How the four windows' block positions are related at every grid point: the activations follow the output's row
    block, the weights and the scales its column block, and nothing moves along the contracted axis. -/
theorem block_positions : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 3
    ∧ win0_3.index t (1 : Fin 2) ≤ 42 :=
  (by decide +kernel : ∀ t : Fin grid0.N, _)

/-- Every block position of the result is some grid point's. -/
theorem block_onto : ∀ (q0 : Fin 4) (q1 : Fin 43), ∃ t : Fin cfg0.N, win0_3.index t = ![q0.val, q1.val] :=
  (by decide +kernel : ∀ (q0 : Fin 4) (q1 : Fin 43), ∃ t : Fin grid0.N, win0_3.index t = ![q0.val, q1.val])

/-- Row `p` of the activation block at a point is row `2048·i + p` of the activations. -/
theorem actBlock_apply (c : Dev nD) (t : Fin cfg0.N) (p : Fin 2048) (k : Fin 4096) (r : Fin 8192)
    (hr : r.val = win0_3.index t (0 : Fin 2) * 2048 + p.val) :
    actBlock m c t (ix2 p k) = actArr m c (ix2 r k) := by
  obtain ⟨e0, e1, e2, e3, e4, e5, e6, e7⟩ := block_positions t
  show (((cfg0.win 0).blk t).view.read (Elt Ideal) (V m c (Pipeline.arrRef spec0 0))) (ix2 p k) = _
  rw [View.read_apply]
  show V m c main_v1 _ = V m c main_v1 _
  congr 1
  funext a
  apply Fin.ext
  match a with
  | ⟨0, _⟩ => show win0_0.index t (0 : Fin 2) * 2048 + 1 * p.val = r.val; omega
  | ⟨1, _⟩ => show win0_0.index t (1 : Fin 2) * 4096 + 1 * k.val = k.val; omega

/-- Row `q` of the weight block at a point is row `256·j + q` of the weights. -/
theorem wtBlock_apply (c : Dev nD) (t : Fin cfg0.N) (q : Fin 256) (k : Fin 4096) (n : Fin 11008)
    (hn : n.val = win0_3.index t (1 : Fin 2) * 256 + q.val) :
    wtBlock m c t (ix2 q k) = wtArr m c (ix2 n k) := by
  obtain ⟨e0, e1, e2, e3, e4, e5, e6, e7⟩ := block_positions t
  show (((cfg0.win 1).blk t).view.read (Elt Ideal) (V m c (Pipeline.arrRef spec0 1))) (ix2 q k) = _
  rw [View.read_apply]
  show V m c main_v17 _ = V m c main_v17 _
  congr 1
  funext a
  apply Fin.ext
  match a with
  | ⟨0, _⟩ => show win0_1.index t (0 : Fin 2) * 256 + 1 * q.val = n.val; omega
  | ⟨1, _⟩ => show win0_1.index t (1 : Fin 2) * 4096 + 1 * k.val = k.val; omega

/-- Entry `q` of the scale block at a point is entry `256·j + q` of the scale row. -/
theorem scBlock_apply (c : Dev nD) (t : Fin cfg0.N) (q : Fin 256) (n : Fin 11008)
    (hn : n.val = win0_3.index t (1 : Fin 2) * 256 + q.val) :
    scBlock m c t (ix2 0 q) = scArr m c (ix2 0 n) := by
  obtain ⟨e0, e1, e2, e3, e4, e5, e6, e7⟩ := block_positions t
  show (((cfg0.win 2).blk t).view.read (Elt Ideal) (V m c (Pipeline.arrRef spec0 2))) (ix2 0 q) = _
  rw [View.read_apply]
  show V m c main_v18 _ = V m c main_v18 _
  congr 1
  funext a
  apply Fin.ext
  match a with
  | ⟨0, _⟩ => show win0_2.index t (0 : Fin 2) * 1 + 1 * (0 : Fin 1).val = (0 : Fin 1).val; simp only [Fin.val_zero]; omega
  | ⟨1, _⟩ => show win0_2.index t (1 : Fin 2) * 256 + 1 * q.val = n.val; omega

/-- Where element (p, q) of the output block at a point sits in the result. -/
theorem outBlock_emb (t : Fin cfg0.N) (p : Fin 2048) (q : Fin 256) (r : Fin 8192) (n : Fin 11008)
    (hr : r.val = win0_3.index t (0 : Fin 2) * 2048 + p.val) (hn : n.val = win0_3.index t (1 : Fin 2) * 256 + q.val) :
    ((cfg0.win 3).blk t).view.emb (ix2 p q) = (ix2 r n : S8192x11008.Idx) := by
  funext a
  apply Fin.ext
  match a with
  | ⟨0, _⟩ => show win0_3.index t (0 : Fin 2) * 2048 + 1 * p.val = r.val; omega
  | ⟨1, _⟩ => show win0_3.index t (1 : Fin 2) * 256 + 1 * q.val = n.val; omega

/-- WHAT A POINT WRITES BACK is its block of `scaledProduct` of the staged arrays. -/
theorem flushed_eq (c : Dev nD) (t : Fin cfg0.N) :
    (dats m 0 c).flushed 3 t
      = ((cfg0.win 3).blk t).view.read (Elt Ideal) (scaledProduct (actArr m c) (wtArr m c) (scArr m c)) := by
  show (cfg0.win 3).cut (grid0.coords t) ((dats m 0 c).after 3 t) = _
  rw [after0_3]
  unfold out0_3
  rw [View.canon_unit_zero zero_offsets]
  simp only [View.ld_unit_zero (S := S2048x4096) zero_offsets, View.ld_unit_zero (S := S256x4096) zero_offsets,
    View.ld_unit_zero (S := S1x256) zero_offsets]
  funext j
  obtain ⟨p, q, rfl⟩ : ∃ (p : Fin 2048) (q : Fin 256), j = ix2 p q := ⟨j 0, j 1, eq_ix2 j⟩
  obtain ⟨e0, e1, e2, e3, e4, e5, e6, e7⟩ := block_positions t
  have hr : win0_3.index t (0 : Fin 2) * 2048 + p.val < 8192 := by have := p.isLt; omega
  have hn : win0_3.index t (1 : Fin 2) * 256 + q.val < 11008 := by have := q.isLt; omega
  show k0_pay1 (F := Ideal) (actBlock m c t) (wtBlock m c t) (scBlock m c t) (ix2 p q)
      = scaledProduct (actArr m c) (wtArr m c) (scArr m c) (((cfg0.win 3).blk t).view.emb (ix2 p q))
  refine (BlockProduct.stored_apply (actBlock m c t) (wtBlock m c t) (scBlock m c t) p q).trans ?_
  rw [outBlock_emb t p q ⟨_, hr⟩ ⟨_, hn⟩ rfl rfl]
  show _ = (∑ k : Fin 4096, actArr m c (ix2 ⟨_, hr⟩ k) * wtArr m c (ix2 ⟨_, hn⟩ k)) * scArr m c (ix2 0 ⟨_, hn⟩)
  rw [scBlock_apply m c t q ⟨_, hn⟩ rfl]
  refine congrArg (· * _) (Finset.sum_congr rfl fun k _ => ?_)
  rw [actBlock_apply m c t p k ⟨_, hr⟩ rfl, wtBlock_apply m c t q k ⟨_, hn⟩ rfl]

/-- An index of the result is in a point's block iff each coordinate is in the block's range on its axis. -/
theorem mem_block (t : Fin cfg0.N) (i : S8192x11008.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v19).slice (win0_3.rect t)).set ↔ _
  rw [View.set_slice_whole, Rect.mem_set_unit]
  exact Iff.rfl

/-- The blocks tile the result: every index is in the block of the point at block position (row / 2048, column / 256). -/
theorem covered (i : S8192x11008.Idx) :
    ∃ t : Fin cfg0.N, (cfg0.win 3).flush t = true ∧ i ∈ ((cfg0.win 3).blk t).view.set := by
  have hi0 : (i 0).val < 8192 := (i 0).isLt
  have hi1 : (i 1).val < 11008 := (i 1).isLt
  obtain ⟨t, ht⟩ := block_onto ⟨(i 0).val / 2048, by omega⟩ ⟨(i 1).val / 256, by omega⟩
  have q0 : win0_3.index t (0 : Fin 2) = (i 0).val / 2048 := congrFun ht 0
  have q1 : win0_3.index t (1 : Fin 2) = (i 1).val / 256 := congrFun ht 1
  refine ⟨t, flush0_3 t, ?_⟩
  rw [mem_block]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 256 ≤ (i 1).val ∧ (i 1).val < win0_3.index t (1 : Fin 2) * 256 + 256; omega

/-- THE RESULT ARRAY after the region is `scaledProduct` of the staged arrays. -/
theorem final (c : Dev nD) :
    (dats m 0 c).arrAt 3 cfg0.N = scaledProduct (actArr m c) (wtArr m c) (scArr m c) :=
  (dats m 0 c).arrAt_eq_of_cover 3 (scaledProduct (actArr m c) (wtArr m c) (scArr m c))
    (fun t _ => flushed_eq m c t) (covered)

end Cert.KernelIdeal.WholeProduct

end
-- ==== Proof.KernelRun.lean ====
/-
  The idealized kernel's run, read back.

  The frame run leaves the region's result array at what the write-backs compose to — `scaledProduct` of the staged
  arrays — and every other buffer at what the host operation after the region makes of that: the program's result is the
  [8192, 11008] product reshaped to [4, 2048, 11008]. The argument arrays end as launched.
-/
import proofs.«412565_j29394756174133_2_alg».proof.Proof.WholeProduct

noncomputable section

namespace Cert.KernelIdeal.WholeProduct

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The program's result after the host reshape: the region's result array, reshaped. -/
theorem result_after_tail (c : Dev nD) :
    Pipeline.afterTail₀ cfgs (dats m) 0 (V0 m) [hostOps1] c main_v20
      = shapeCast S4x2048x11008 (scaledProduct (actArr m c) (wtArr m c) (scArr m c)) shapeCasts_S8192x11008_S4x2048x11008 := by
  unfold Pipeline.afterTail₀
  show StableHlo.after hostOps1 _ (Proc.devRef .tc main_v20) = _
  after_results
  exact congrArg (fun a => shapeCast S4x2048x11008 a shapeCasts_S8192x11008_S4x2048x11008)
    ((Pipeline.withArrays_arr spec0 launch0.win.arr_inj c _ _ 3).trans (final m c))

/-- Every weakly fair execution of the idealized kernel terminates with the result at the reshaped product of the staged
    arrays and the arguments unchanged. -/
theorem run : θ_run defs (onTc (τ := τ) (main (F := Ideal))) ⟨m, fun _ => 0, ρ⟩ fun r => ∀ c : Dev nD,
      r.2.mem ((c.tc : Thread nD τ).loc main_v20)
          = shapeCast S4x2048x11008 (scaledProduct (actArr m c) (wtArr m c) (scArr m c)) shapeCasts_S8192x11008_S4x2048x11008
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v20 (Pipeline.mem_restRefs_of main_v20 (by decide) (by decide))).trans (result_after_tail m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.WholeProduct

end
-- ==== Proof.EntryArrays.lean ====
/-
  The three arrays the region stages, as functions of the launch arguments.

  Before the region the host program prepares: the activations reshaped [4, 2048, 4096] → [8192, 4096] and narrowed
  (a change of format: the identity at exact arithmetic); the weight codes unpacked — each packed word shifted right
  by 0, 2, 4, 6 and masked with 3, the [n, 4] fields flattened, converted to floats, 1 subtracted, reshaped to
  [11008, 4096] — and narrowed; and the scales reshaped [11008, 1] → [1, 11008]. Each staged array is read back here
  as that composed term of the arguments.
-/
import proofs.«412565_j29394756174133_2_alg».proof.Proof.Gen.KernelIdeal.Frame
import Idealize.ShloMosaic.Lib.StableHlo.Run
import Idealize.ShloMosaic.Lib.ValueIdx

noncomputable section

namespace Cert.KernelIdeal.EntryArrays

open Cert.KernelIdeal Cert.KernelIdeal.Gen Idealize.ShloMosaic Idealize.ShloMosaic.TcCoe Idealize.SL.Sem
open Idealize.ShloMosaic.StableHlo

variable {F : FTy → Type} [FloatOps F]

/-- The unpacked weight codes as floats: `((word >> 2·f) & 3) − 1` for field `f` of each packed word, laid out
    [11008, 4096]. -/
def unpacked (x1 : IVec S11272192 32) : FVec F S11008x4096 .f32 :=
  shapeCast _ (subf (sitofp .f32 (shapeCast _ (andi (Host.shrsi (broadcastInDim S11272192x4 ![0, 1] bcast_S11272192x1_S11272192x4_0_1 (broadcastInDim S11272192x1 ![0] bcast_S11272192_S11272192x1_0 x1)) (broadcastInDim S11272192x4 ![0, 1] bcast_S1x4_S11272192x4_0_1 (broadcastInDim S1x4 ![1] bcast_S4_S1x4_1 (muli (iotaInDim S4 32 0) (broadcastInDim S4 ![] bcast_S_S4 (constantI S_ 32 2#32)))))) (broadcastInDim S11272192x4 ![] bcast_S_S11272192x4 (constantI S_ 32 3#32))) shapeCasts_S11272192x4_S45088768)) (broadcastInDim S45088768 ![] bcast_S_S45088768 (constant S_ .f32 0x3F800000#32))) shapeCasts_S45088768_S11008x4096

variable (m : (ℓ : Loc nD τ sig) → Buf (Elt F) ℓ)

/-- The activations as staged: reshaped to [8192, 4096] and narrowed. -/
theorem activations_entry (c : Dev nD) :
    (V m c main_v1 : Vec F S8192x4096 .bf16) =
      truncf .bf16 (shapeCast S8192x4096 (m ((c : Thread nD τ).loc main_arg0)) shapeCasts_S4x2048x4096_S8192x4096) bitsLt_bf16_f32 := by
  show StableHlo.after hostOps0 (fun b => m (c, b)) (Proc.devRef .tc main_v1) = _
  after_results
  rfl

/-- The weights as staged: the unpacked codes, narrowed. -/
theorem weights_entry (c : Dev nD) :
    (V m c main_v17 : Vec F S11008x4096 .bf16) =
      truncf .bf16 (unpacked (F := F) (m ((c : Thread nD τ).loc main_arg1))) bitsLt_bf16_f32 := by
  show StableHlo.after hostOps0 (fun b => m (c, b)) (Proc.devRef .tc main_v17) = _
  after_results
  rfl

/-- The scales as staged: reshaped to one row. -/
theorem scales_entry (c : Dev nD) :
    (V m c main_v18 : Vec F S1x11008 .f32) =
      shapeCast S1x11008 (m ((c : Thread nD τ).loc main_arg2)) shapeCasts_S11008x1_S1x11008 := by
  show StableHlo.after hostOps0 (fun b => m (c, b)) (Proc.devRef .tc main_v18) = _
  after_results
  rfl

end Cert.KernelIdeal.EntryArrays

end
-- ==== Proof.ScaleLaw.lean ====
/-
  The one algebraic law of this certificate.

  The kernel multiplies a whole inner product by a per-column scale, `(∑ₖ aₖ · bₖ) · s`; the reference scales
  the weights first and sums afterwards, `∑ₖ aₖ · (bₖ · s)`. On the extended reals a factor does not move across
  a sum in general (an infinite term on one side can meet a zero on the other), but when every `aₖ`, every `bₖ`
  and `s` are real numbers both sides are the coercion of the same real, by distributivity in ℝ.
-/
import Idealize.ShloMosaic.PureOps.Ideal

namespace Cert.ScaledGemm

open scoped BigOperators

/-- A finite sum of coerced reals is the coercion of the real sum. -/
theorem coe_finset_sum {ι : Type} (S : Finset ι) (f : ι → ℝ) :
    ∑ i ∈ S, ((f i : ℝ) : EReal) = ((∑ i ∈ S, f i : ℝ) : EReal) := by
  induction S using Finset.cons_induction with
  | empty => rw [Finset.sum_empty, Finset.sum_empty, EReal.coe_zero]
  | cons a S ha ih => rw [Finset.sum_cons, Finset.sum_cons, ih, EReal.coe_add]

/-- A real scale moves inside a finite sum of products of reals. -/
theorem sum_mul_scale {n : Nat} (a b : Fin n → EReal) (s : EReal)
    (ha : ∀ k, ∃ r : ℝ, a k = (r : EReal)) (hb : ∀ k, ∃ r : ℝ, b k = (r : EReal)) (hs : ∃ r : ℝ, s = (r : EReal)) :
    (∑ k, a k * b k) * s = ∑ k, a k * (b k * s) := by
  choose ra hra using ha
  choose rb hrb using hb
  obtain ⟨rs, rfl⟩ := hs
  have e1 : ∀ k, a k * b k = ((ra k * rb k : ℝ) : EReal) := fun k => by rw [hra k, hrb k, EReal.coe_mul]
  have e2 : ∀ k, a k * (b k * (rs : EReal)) = ((ra k * (rb k * rs) : ℝ) : EReal) := fun k => by
    rw [hra k, hrb k, EReal.coe_mul, EReal.coe_mul]
  rw [Finset.sum_congr rfl (fun k _ => e1 k), Finset.sum_congr rfl (fun k _ => e2 k), coe_finset_sum, coe_finset_sum,
    ← EReal.coe_mul, Finset.sum_mul]
  exact congrArg _ (Finset.sum_congr rfl fun k _ => mul_assoc _ _ _)

end Cert.ScaledGemm
-- ==== Proof.Bridge.lean ====
/-
  The two results are one function of the arguments, under the precondition.

  Reference, at index (b, t, n):  ∑ₖ x[b, t, k] · (q[n, k] · scale[n, 0]),
  where `q` is the array of unpacked weight codes and the reference scales each weight row before its matrix product.

  Kernel, at the same index: the [8192, 11008] product reshaped, so row `2048·b + t`, column `n`:
  (∑ₖ A[2048·b + t, k] · W[n, k]) · S[0, n], where `A` is `x` reshaped (and narrowed: the identity at exact
  arithmetic), `W` the same unpacked codes `q` (narrowed likewise) and `S` the scales laid out as a row. Read at the
  index these are x[b, t, k], q[n, k] and scale[n, 0].

  So the two differ only in where the scale multiplies. Under the precondition `x` and `scale` are real-valued, and
  the codes are reals by construction (an integer converted to a float, minus one), so the factor moves across the
  sum (`sum_mul_scale`).
-/
import proofs.«412565_j29394756174133_2_alg».proof.Proof.Gen.ReferenceIdeal.Read
import proofs.«412565_j29394756174133_2_alg».proof.Proof.WholeProduct
import proofs.«412565_j29394756174133_2_alg».proof.Proof.EntryArrays
import proofs.«412565_j29394756174133_2_alg».proof.Proof.ScaleLaw
import proofs.«412565_j29394756174133_2_alg».proof.Proof.LibFinite
import Idealize.ShloMosaic.Lib.Pipeline.Value
import Idealize.ShloMosaic.Lib.ValueIdx

noncomputable section

namespace Cert.ScaledGemm

open Idealize.ShloMosaic Idealize.ShloMosaic.ValueIdx Cert.LibFinite
open scoped BigOperators

/-- The unpacked weight codes, the reference's spelling. -/
abbrev codes (x1 : IVec Cert.ReferenceIdeal.S11272192 32) : FVec Ideal Cert.ReferenceIdeal.S11008x4096 .f32 :=
  Cert.ReferenceIdeal.Read.val_main_v14 (F := Ideal) x1

/-- The kernel unpacks the codes by the same operations on the same literals. -/
theorem unpacked_eq_codes (x1 : IVec Cert.ReferenceIdeal.S11272192 32) :
    Cert.KernelIdeal.EntryArrays.unpacked (F := Ideal) x1 = codes x1 := rfl

/-- The codes are real numbers: an integer converted to a float, minus one. -/
theorem allReal_codes (x1 : IVec Cert.ReferenceIdeal.S11272192 32) : AllReal (codes x1) := by
  unfold codes Cert.ReferenceIdeal.Read.val_main_v14 Cert.ReferenceIdeal.Read.val_main_v13
    Cert.ReferenceIdeal.Read.val_main_v12 Cert.ReferenceIdeal.Read.val_main_v11 Cert.ReferenceIdeal.Read.val_main_cst
  exact allReal_shapeCast _ (allReal_subf (allReal_sitofp _)
    (allReal_broadcastInDim _ _ (allPos_constant_3F800000 _).allReal))

/-- The reference's result at an index: the activations' row against the scaled codes' row. -/
theorem reference_apply (x0 : FVec Ideal Cert.ReferenceIdeal.S4x2048x4096 .f32) (x1 : IVec Cert.ReferenceIdeal.S11272192 32)
    (x2 : FVec Ideal Cert.ReferenceIdeal.S11008x1 .f32) (b : Fin 4) (t : Fin 2048) (n : Fin 11008) :
    Cert.ReferenceIdeal.Read.val_main_v17 (F := Ideal) x0 x1 x2 (ix3 b t n)
      = ∑ k : Fin 4096, x0 (ix3 b t k) * (codes x1 (ix2 n k) * x2 (ix2 n 0)) := by
  rw [Cert.ReferenceIdeal.Read.val_main_v17_apply]
  refine Finset.sum_congr rfl fun k _ => ?_
  rw [Cert.ReferenceIdeal.Read.val_main_v16_apply, Cert.ReferenceIdeal.Read.val_main_v15_apply]
  have el : Cert.ReferenceIdeal.Read.lidx_main_v17 (ix3 b t n) k = ix3 b t k := funext fun a => Fin.ext (by
    match a with | ⟨0, _⟩ => rfl | ⟨1, _⟩ => rfl | ⟨2, _⟩ => rfl)
  have er : Cert.ReferenceIdeal.Read.ridx_main_v17 (ix3 b t n) k = ix2 n k := funext fun a => Fin.ext (by
    match a with | ⟨0, _⟩ => rfl | ⟨1, _⟩ => rfl)
  have es : Cert.ReferenceIdeal.Read.idx_main_v15 (ix2 n k) = ix2 n 0 := funext fun a => Fin.ext (by
    match a with | ⟨0, _⟩ => rfl | ⟨1, _⟩ => rfl)
  rw [el, er, es]
  rfl

/-- The kernel's result at an index: the reshaped product read at row `2048·b + t`, column `n`, its staged arrays read
    back to the arguments. -/
theorem kernel_apply (x0 : FVec Ideal Cert.KernelIdeal.S4x2048x4096 .f32) (x1 : IVec Cert.KernelIdeal.S11272192 32)
    (x2 : FVec Ideal Cert.KernelIdeal.S11008x1 .f32) (b : Fin 4) (t : Fin 2048) (n : Fin 11008) :
    shapeCast Cert.KernelIdeal.S4x2048x11008
        (Cert.KernelIdeal.WholeProduct.scaledProduct
          (truncf .bf16 (shapeCast Cert.KernelIdeal.S8192x4096 x0 Cert.KernelIdeal.Facts₀.shapeCasts_S4x2048x4096_S8192x4096) Cert.KernelIdeal.Facts₀.bitsLt_bf16_f32)
          (truncf .bf16 (Cert.KernelIdeal.EntryArrays.unpacked (F := Ideal) x1) Cert.KernelIdeal.Facts₀.bitsLt_bf16_f32)
          (shapeCast Cert.KernelIdeal.S1x11008 x2 Cert.KernelIdeal.Facts₀.shapeCasts_S11008x1_S1x11008))
        Cert.KernelIdeal.Facts₀.shapeCasts_S8192x11008_S4x2048x11008 (ix3 b t n)
      = (∑ k : Fin 4096, x0 (ix3 b t k) * codes x1 (ix2 n k)) * x2 (ix2 n 0) := by
  have hb : b.val * 2048 + t.val < 8192 := by have := b.isLt; have := t.isLt; omega
  rw [shapeCast_apply _ _ (ix3 b t n) (ix2 ⟨b.val * 2048 + t.val, hb⟩ n)
    (by rewrite [Shape.rowMajor_val_two, Shape.rowMajor_val_three]
        show (b.val * 2048 + t.val) * 11008 + n.val = (b.val * 2048 + t.val) * 11008 + n.val
        rfl)]
  unfold Cert.KernelIdeal.WholeProduct.scaledProduct
  show (∑ k : Fin 4096,
      (shapeCast Cert.KernelIdeal.S8192x4096 x0 Cert.KernelIdeal.Facts₀.shapeCasts_S4x2048x4096_S8192x4096) (ix2 ⟨b.val * 2048 + t.val, hb⟩ k)
        * Cert.KernelIdeal.EntryArrays.unpacked (F := Ideal) x1 (ix2 n k))
      * (shapeCast Cert.KernelIdeal.S1x11008 x2 Cert.KernelIdeal.Facts₀.shapeCasts_S11008x1_S1x11008) (ix2 0 n) = _
  rw [unpacked_eq_codes,
    shapeCast_apply x2 Cert.KernelIdeal.Facts₀.shapeCasts_S11008x1_S1x11008 (ix2 0 n) (ix2 n 0)
      (by rewrite [Shape.rowMajor_val_two, Shape.rowMajor_val_two]
          show n.val * 1 + 0 = 0 * 11008 + n.val
          omega)]
  refine congrArg (· * _) (Finset.sum_congr rfl fun k _ => ?_)
  rw [shapeCast_apply x0 Cert.KernelIdeal.Facts₀.shapeCasts_S4x2048x4096_S8192x4096 (ix2 ⟨b.val * 2048 + t.val, hb⟩ k) (ix3 b t k)
      (by rewrite [Shape.rowMajor_val_three, Shape.rowMajor_val_two]
          show (b.val * 2048 + t.val) * 4096 + k.val = (b.val * 2048 + t.val) * 4096 + k.val
          rfl)]

/-- THE BRIDGE: for real-valued activations and scales the kernel's result is the reference's. -/
theorem kernel_eq_reference (x0 : FVec Ideal Cert.KernelIdeal.S4x2048x4096 .f32) (x1 : IVec Cert.KernelIdeal.S11272192 32)
    (x2 : FVec Ideal Cert.KernelIdeal.S11008x1 .f32) (h0 : AllReal x0) (h2 : AllReal x2) :
    shapeCast Cert.KernelIdeal.S4x2048x11008
        (Cert.KernelIdeal.WholeProduct.scaledProduct
          (truncf .bf16 (shapeCast Cert.KernelIdeal.S8192x4096 x0 Cert.KernelIdeal.Facts₀.shapeCasts_S4x2048x4096_S8192x4096) Cert.KernelIdeal.Facts₀.bitsLt_bf16_f32)
          (truncf .bf16 (Cert.KernelIdeal.EntryArrays.unpacked (F := Ideal) x1) Cert.KernelIdeal.Facts₀.bitsLt_bf16_f32)
          (shapeCast Cert.KernelIdeal.S1x11008 x2 Cert.KernelIdeal.Facts₀.shapeCasts_S11008x1_S1x11008))
        Cert.KernelIdeal.Facts₀.shapeCasts_S8192x11008_S4x2048x11008
      = Cert.ReferenceIdeal.Read.val_main_v17 (F := Ideal) x0 x1 x2 := by
  funext i
  obtain ⟨b, t, n, rfl⟩ : ∃ (b : Fin 4) (t : Fin 2048) (n : Fin 11008), i = ix3 b t n := ⟨i 0, i 1, i 2, eq_ix3 i⟩
  rw [kernel_apply, reference_apply]
  exact sum_mul_scale (fun k => x0 (ix3 b t k)) (fun k => codes x1 (ix2 n k)) (x2 (ix2 n 0))
    (fun k => h0 _) (fun k => allReal_codes x1 _) (h2 _)

end Cert.ScaledGemm

end
-- ==== Proof.lean ====
/-
  A ternary-weight linear layer: the kernel's result equals the reference's over the extended reals.

  Both programs unpack the same 2-bit weight codes `q[n, k] = ((word >> 2·field) & 3) − 1` from the packed integers.
  The reference scales each weight row first and then contracts:  out[b, t, n] = ∑ₖ x[b, t, k] · (q[n, k] · scale[n]).
  The kernel contracts the unscaled codes on the matrix unit, block by block over a 4 × 43 grid, and multiplies each
  column of the product by its scale afterwards:  out[b, t, n] = (∑ₖ x[b, t, k] · q[n, k]) · scale[n].
  At exact arithmetic the kernel's narrowing of its operands is the identity, its block product into a zero accumulator
  is the plain sum, and the blocks tile the result, so the two programs differ only in where the scale multiplies.
  A factor moves across a sum of extended reals when all terms are real numbers: the precondition makes `x` and `scale`
  real-valued, and the codes are reals by construction.

  The three frames: the kernel's and the idealized kernel's are the generated frame certificates; the reference has no
  kernel, and its frame is its run with the result dropped. The idealization rewrote nothing, so `preserves` is trivial.
-/
import proofs.«412565_j29394756174133_2_alg».proof.Defs
import proofs.«412565_j29394756174133_2_alg».proof.Proof.Gen.Kernel
import proofs.«412565_j29394756174133_2_alg».proof.Proof.Gen.Kernel.Skeleton
import proofs.«412565_j29394756174133_2_alg».proof.Proof.Gen.Kernel.Launch
import proofs.«412565_j29394756174133_2_alg».proof.Proof.Gen.Kernel.Points
import proofs.«412565_j29394756174133_2_alg».proof.Proof.Gen.Kernel.Frame
import proofs.«412565_j29394756174133_2_alg».proof.Proof.Gen.KernelIdeal
import proofs.«412565_j29394756174133_2_alg».proof.Proof.Gen.KernelIdeal.Skeleton
import proofs.«412565_j29394756174133_2_alg».proof.Proof.Gen.KernelIdeal.Launch
import proofs.«412565_j29394756174133_2_alg».proof.Proof.Gen.KernelIdeal.Points
import proofs.«412565_j29394756174133_2_alg».proof.Proof.Gen.KernelIdeal.Frame
import proofs.«412565_j29394756174133_2_alg».proof.Proof.Gen.ReferenceIdeal
import proofs.«412565_j29394756174133_2_alg».proof.Proof.Gen.ReferenceIdeal.Run
import proofs.«412565_j29394756174133_2_alg».proof.Proof.Gen.ReferenceIdeal.Read
import proofs.«412565_j29394756174133_2_alg».proof.Proof.Gen.Pre_finite_inputs
import proofs.«412565_j29394756174133_2_alg».proof.Proof.FiniteInputs
import proofs.«412565_j29394756174133_2_alg».proof.Proof.KernelRun
import proofs.«412565_j29394756174133_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the reference's function of the arguments: the reference by its own run, the
    kernel because, for the real-valued activations and scales the precondition grants, its reshaped blockwise product
    is that function (`kernel_eq_reference`). -/
theorem algebraic : Cert.algebraic_KernelIdeal_ReferenceIdeal := by
  intro m ρ m' ρ' hpre hagree
  refine ⟨fun c => Cert.ReferenceIdeal.Read.val_main_v17 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.WholeProduct.run m ρ)
    obtain ⟨hx, hs⟩ := Cert.ScaledGemm.allReal_of_pre _ _ _ (hpre c)
    show shapeCast Cert.KernelIdeal.S4x2048x11008
        (Cert.KernelIdeal.WholeProduct.scaledProduct (Cert.KernelIdeal.Gen.V m c Cert.KernelIdeal.main_v1)
          (Cert.KernelIdeal.Gen.V m c Cert.KernelIdeal.main_v17) (Cert.KernelIdeal.Gen.V m c Cert.KernelIdeal.main_v18))
        Cert.KernelIdeal.Facts₀.shapeCasts_S8192x11008_S4x2048x11008 = _
    rw [Cert.KernelIdeal.EntryArrays.activations_entry m c, Cert.KernelIdeal.EntryArrays.weights_entry m c,
      Cert.KernelIdeal.EntryArrays.scales_entry m c]
    exact Cert.ScaledGemm.kernel_eq_reference _ _ _ hx hs
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v17_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
